-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  shapeCasts_S8192x4096_S4x2048x4096 : S8192x4096.ShapeCasts S4x2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The specification both programs meet, and the one law of sums that joins them.

  With X an 8192×4096 array, W a 4096×4096 array and b a vector of 4096 entries, the result is
      lin X W b (i, j) = (∑ k < 4096, X (i, k) · W (j, k)) + b j ,
  the matrix product of X with the transpose of W, plus b along every row.

  Arrays are read at natural-number coordinates through `cell` / `entry` (zero outside the array), so that
  every coordinate computation below is linear arithmetic on naturals.

  The kernel forms each row-by-row product in four pieces of 1024 terms; the reference in one sum of 4096 terms.
  Both are the same element of a commutative monoid: a sum over `n·b` consecutive naturals is the sum, over the
  `n` blocks, of the sums inside each block (`sum_range_blocks`). Only commutativity and associativity of
  addition are used, so infinite entries need no special care.
-/
import Idealize.ShloMosaic.Lib.ValueIdx
import Idealize.ShloMosaic.PureOps.Ideal.Laws
import Mathlib.Algebra.BigOperators.Fin

noncomputable section

namespace Cert.Lin

open Idealize.ShloMosaic Idealize.ShloMosaic.ValueIdx

/-- An R×C array read at natural coordinates: its entry inside the array, zero outside. -/
def cell {R C : Nat} (A : (⟨2, ![R, C]⟩ : Shape).Idx → EReal) (a b : ℕ) : EReal :=
  if h : a < R ∧ b < C then A (ix2 ⟨a, h.1⟩ ⟨b, h.2⟩) else 0

/-- A vector of C entries read at a natural coordinate: its entry inside, zero outside. -/
def entry {C : Nat} (B : (⟨1, ![C]⟩ : Shape).Idx → EReal) (b : ℕ) : EReal :=
  if h : b < C then B (ix1 ⟨b, h⟩) else 0

theorem cell_of_lt {R C : Nat} (A : (⟨2, ![R, C]⟩ : Shape).Idx → EReal) (a b : ℕ) (ha : a < R) (hb : b < C) :
    cell A a b = A (ix2 ⟨a, ha⟩ ⟨b, hb⟩) := dif_pos ⟨ha, hb⟩

theorem entry_of_lt {C : Nat} (B : (⟨1, ![C]⟩ : Shape).Idx → EReal) (b : ℕ) (hb : b < C) :
    entry B b = B (ix1 ⟨b, hb⟩) := dif_pos hb

/-- An array at an index is its cell at the index's coordinates. -/
theorem apply_eq_cell {R C : Nat} (A : (⟨2, ![R, C]⟩ : Shape).Idx → EReal) (j : (⟨2, ![R, C]⟩ : Shape).Idx) :
    A j = cell A (j 0).val (j 1).val := by
  rw [cell_of_lt A _ _ (j 0).isLt (j 1).isLt]
  exact congrArg A (eq_ix2 j)

/-- A vector at an index is its entry at the index's coordinate. -/
theorem apply_eq_entry {C : Nat} (B : (⟨1, ![C]⟩ : Shape).Idx → EReal) (j : (⟨1, ![C]⟩ : Shape).Idx) :
    B j = entry B (j 0).val := by
  rw [entry_of_lt B _ (j 0).isLt]
  exact congrArg B (eq_ix1 j)

/-- Row `a` of X against row `b` of W over the K-block `s`: 1024 products. -/
def blockDot (X : (⟨2, ![8192, 4096]⟩ : Shape).Idx → EReal) (W : (⟨2, ![4096, 4096]⟩ : Shape).Idx → EReal) (a b s : ℕ) : EReal :=
  ∑ r : Fin 1024, cell X a (1024 * s + r.val) * cell W b (1024 * s + r.val)

/-- Row `a` of X against row `b` of W: all 4096 products. -/
def rowDot (X : (⟨2, ![8192, 4096]⟩ : Shape).Idx → EReal) (W : (⟨2, ![4096, 4096]⟩ : Shape).Idx → EReal) (a b : ℕ) : EReal :=
  ∑ k : Fin 4096, cell X a k.val * cell W b k.val

/-- THE SPECIFICATION: X · Wᵀ plus the bias along every row. -/
def lin (X : (⟨2, ![8192, 4096]⟩ : Shape).Idx → EReal) (W : (⟨2, ![4096, 4096]⟩ : Shape).Idx → EReal)
    (B : (⟨1, ![4096]⟩ : Shape).Idx → EReal) : (⟨2, ![8192, 4096]⟩ : Shape).Idx → EReal :=
  fun j => rowDot X W (j 0).val (j 1).val + entry B (j 1).val

/-- A sum over `n` blocks of `b` consecutive naturals, block by block. -/
theorem sum_range_blocks {M : Type*} [AddCommMonoid M] (g : ℕ → M) (b : ℕ) :
    ∀ n : ℕ, ∑ k ∈ Finset.range (n * b), g k = ∑ s ∈ Finset.range n, ∑ r ∈ Finset.range b, g (b * s + r)
  | 0 => by simp
  | n + 1 => by
    rw [Nat.succ_mul, Finset.sum_range_add, sum_range_blocks g b n, Finset.sum_range_succ, Nat.mul_comm n b]

/-- The whole row product is the sum of its four K-blocks. -/
theorem rowDot_eq_blocks (X : (⟨2, ![8192, 4096]⟩ : Shape).Idx → EReal) (W : (⟨2, ![4096, 4096]⟩ : Shape).Idx → EReal) (a b : ℕ) :
    rowDot X W a b = ∑ s ∈ Finset.range 4, blockDot X W a b s := by
  unfold rowDot blockDot
  rw [Fin.sum_univ_eq_sum_range (fun k => cell X a k * cell W b k) 4096]
  refine (sum_range_blocks (fun k => cell X a k * cell W b k) 1024 4).trans ?_
  refine Finset.sum_congr rfl fun s _ => ?_
  exact (Fin.sum_univ_eq_sum_range (fun r => cell X a (1024 * s + r) * cell W b (1024 * s + r)) 1024).symm

end Cert.Lin

end
-- ==== Proof.Blocks.lean ====
/-
  The blocks the kernel body is handed at a grid point, read at one entry of the arrays they come from.

  The grid has 8 × 4 × 4 = 128 points; point `t` has row-block `t / 16`, column-block `t / 4 % 4` and
  K-block `t % 4` (the K-coordinate runs fastest). At point `t`
    * the x-block is rows 1024·(t/16) … and columns 1024·(t%4) … of the 8192×4096 array the region finds, which is
      the first argument re-laid row-major from 4×2048×4096;
    * the w-block is rows 1024·(t/4%4) … and columns 1024·(t%4) … of the second argument;
    * the bias block is columns 1024·(t/4%4) … of the 1×4096 array that is the third argument re-laid as one row.
  A block's coordinate in its array is always (block index) × (block size) + (coordinate inside the block).
-/
import proofs.«126872_j33483565039896_1_alg».proof.Proof.Gen.KernelIdeal.Frame
import proofs.«126872_j33483565039896_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Acc

open Cert.KernelIdeal Cert.KernelIdeal.Gen Cert.Lin

variable (m : (ℓ : Loc nD τ sig) → Buf (Elt Ideal) ℓ)

/-- The three input blocks at a point, and the three arrays they are cut from, at their literal types. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t
abbrev xarr (c : Dev nD) : Vec Ideal S8192x4096 .f32 := V m c main_call0_v0
abbrev warr (c : Dev nD) : Vec Ideal S4096x4096 .f32 := V m c main_arg1
abbrev barr (c : Dev nD) : Vec Ideal S1x4096 .f32 := V m c main_call0_v1

/-- Which block each window is on at a point, decided once over the 128 points. -/
theorem idx_x : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx_w : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem idx_b : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem idx_o : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

theorem point_lt (t : Fin cfg0.N) : t.val < 128 := lt_of_lt_of_eq t.isLt (show cfg0.N = 128 from N_0)

/-- The x-block at entry (p, r). -/
theorem xblk_apply (c : Dev nD) (t : Fin cfg0.N) (p r : Fin 1024) :
    xblk m c t (ix2 p r) = cell (xarr m c) (1024 * (t.val / 16) + p.val) (1024 * (t.val % 4) + r.val) := by
  have ht := point_lt t
  have hp := p.isLt
  have hr := r.isLt
  rw [cell_of_lt _ _ _ (by omega) (by omega)]
  unfold xblk iblk
  rw [View.read_apply]
  show V m c main_call0_v0 (((cfg0.win 0).blk t).view.emb (ix2 p r)) = V m c main_call0_v0 _
  refine congrArg _ (funext fun a => Fin.ext ?_)
  match a with
  | ⟨0, _⟩ => show win0_0.index t 0 * 1024 + 1 * p.val = 1024 * (t.val / 16) + p.val; rw [(idx_x t).1]; omega
  | ⟨1, _⟩ => show win0_0.index t 1 * 1024 + 1 * r.val = 1024 * (t.val % 4) + r.val; rw [(idx_x t).2]; omega

/-- The w-block at entry (q, r). -/
theorem wblk_apply (c : Dev nD) (t : Fin cfg0.N) (q r : Fin 1024) :
    wblk m c t (ix2 q r) = cell (warr m c) (1024 * (t.val / 4 % 4) + q.val) (1024 * (t.val % 4) + r.val) := by
  have ht := point_lt t
  have hq := q.isLt
  have hr := r.isLt
  rw [cell_of_lt _ _ _ (by omega) (by omega)]
  unfold wblk iblk
  rw [View.read_apply]
  show V m c main_arg1 (((cfg0.win 1).blk t).view.emb (ix2 q r)) = V m c main_arg1 _
  refine congrArg _ (funext fun a => Fin.ext ?_)
  match a with
  | ⟨0, _⟩ => show win0_1.index t 0 * 1024 + 1 * q.val = 1024 * (t.val / 4 % 4) + q.val; rw [(idx_w t).1]; omega
  | ⟨1, _⟩ => show win0_1.index t 1 * 1024 + 1 * r.val = 1024 * (t.val % 4) + r.val; rw [(idx_w t).2]; omega

/-- The bias block at entry (0, q). -/
theorem bblk_apply (c : Dev nD) (t : Fin cfg0.N) (q : Fin 1024) :
    bblk m c t (ix2 0 q) = cell (barr m c) 0 (1024 * (t.val / 4 % 4) + q.val) := by
  have ht := point_lt t
  have hq := q.isLt
  rw [cell_of_lt _ _ _ (by omega) (by omega)]
  unfold bblk iblk
  rw [View.read_apply]
  show V m c main_call0_v1 (((cfg0.win 2).blk t).view.emb (ix2 0 q)) = V m c main_call0_v1 _
  refine congrArg _ (funext fun a => Fin.ext ?_)
  match a with
  | ⟨0, _⟩ => show win0_2.index t 0 * 1 + 1 * 0 = 0; rw [(idx_b t).1]
  | ⟨1, _⟩ => show win0_2.index t 1 * 1024 + 1 * q.val = 1024 * (t.val / 4 % 4) + q.val; rw [(idx_b t).2]; omega

/-- The region finds the first argument re-laid as 8192 rows of 4096, -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_call0_v0) = _
  after_results
  rfl

/-- the second argument as launched, -/
theorem warr_eq (c : Dev nD) : warr m c = m ((c : Thread nD τ).loc main_arg1) := V_main_arg1 m c

/-- and the third argument re-laid as one row of 4096. -/
theorem barr_eq (c : Dev nD) :
    barr m c = shapeCast S1x4096 (m ((c : Thread nD τ).loc main_arg2)) shapeCasts_S4096_S1x4096 := by
  show StableHlo.after hostOps0 (fun b => m (c, b)) (Proc.devRef .tc main_call0_v1) = _
  after_results
  rfl

/-- That row's entry n is the vector's entry n. -/
theorem barr_cell (c : Dev nD) (n : ℕ) (h : n < 4096) :
    cell (barr m c) 0 n = entry (m ((c : Thread nD τ).loc main_arg2) : Vec Ideal S4096 .f32) n := by
  rw [cell_of_lt _ _ _ (by decide) h, entry_of_lt _ _ h, barr_eq]
  exact shapeCast_apply _ shapeCasts_S4096_S1x4096 _ (ix1 ⟨n, h⟩)
    (by rw [Shape.rowMajor_val_one, Shape.rowMajor_val_two]; show n = 0 * 4096 + n; omega)

end Cert.KernelIdeal.Acc

end
-- ==== Proof.Pieces.lean ====
/-
  What one call of the kernel body leaves behind, case by case, as pure terms of what it read.

  The body keeps a 1024×1024 accumulator in a scratch buffer that survives from one grid point to the next.
  At a point whose K-coordinate is 0 it first stores the zero block, reads it back, and stores
  "accumulator + x-block · w-blockᵀ"; at the other points it only does the update, on what the point before left;
  at a point whose K-coordinate is 3 it then also stores "accumulator + bias row" into the output block.
  Every load and store goes through the whole buffer, so each buffer ends holding the payload of its last store,
  a read-back of a store being that store's payload.
-/
import proofs.«126872_j33483565039896_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The offset of every access of the body: the buffer's origin. -/
theorem off00 : (![0, 0] : Fin 2 → Nat) = fun _ => 0 := funext fun a => by fin_cases a <;> rfl

/-- First point of a K-run: the accumulator ends at "zero block, updated once". -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) off00, View.readCov_unit_zero (S := S1024x1024) _ off00]
  simp only [View.readAt_eq_ld, h3.read_unread, h4.read_unread, View.ld_unit_zero (S := S1024x1024) off00]

/-- A middle point of a K-run: the accumulator the point before left, updated once. -/
theorem scratch_mid (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero off00]
  simp only [View.readAt_eq_ld, h3.read_unread, h4.read_unread, h7.read_unread, View.ld_unit_zero (S := S1024x1024) off00]

/-- Last point of a K-run: the accumulator is updated as at a middle point, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero off00]
  simp only [View.readAt_eq_ld, h3.read_unread, h4.read_unread, h7.read_unread, View.ld_unit_zero (S := S1024x1024) off00]

/-- and the output block receives that updated accumulator plus the bias row. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero off00, View.readCov_unit_zero (S := S1024x1024) _ off00]
  simp only [View.readAt_eq_ld, h3.read_unread, h4.read_unread, h5.read_unread, h7.read_unread,
    View.ld_unit_zero (S := S1024x1024) off00, View.ld_unit_zero (S := S1x1024) off00]

end Cert.KernelIdeal.Acc

end
-- ==== Proof.Payload.lean ====
/-
  The three stored values of the kernel body, read at one entry, over the extended reals.

  * the reset value is the zero block;
  * the update of an accumulator block `acc` by an x-block `xb` and a w-block `wb` (both 1024×1024, the second
    contracted along its columns as well: the product is `xb · wbᵀ`) is, at entry (p, q),
        acc (p, q) + ∑ r < 1024, xb (p, r) · wb (q, r) ;
    the narrowing of the two blocks to a shorter float format changes nothing over the extended reals, and the
    product unit's own accumulator is the zero word;
  * the output value is the accumulator plus the bias row: acc (p, q) + brow (0, q).
-/
import proofs.«126872_j33483565039896_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen

/-- The reset value is zero everywhere. -/
theorem reset_apply (j : S1024x1024.Idx) : k0_pay1 (F := Ideal) j = 0 := by
  unfold k0_pay1
  simp only [shapeCast_self]
  exact Ideal.ofBits_zero_f32

/-- The left block is read at the result's row, -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction position along its columns. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right block is read at the row the result's COLUMN names, -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction position along its columns too. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The update at entry (p, q): the old accumulator there plus row p of the x-block against row q of the w-block. -/
theorem update_apply (xb wb acc : Vec Ideal S1024x1024 .f32) (p q : Fin 1024) :
    k0_pay2 (F := Ideal) xb wb acc (ix2 p q) = acc (ix2 p q) + ∑ r : Fin 1024, xb (ix2 p r) * wb (ix2 q r) := by
  unfold k0_pay2
  simp only [shapeCast_self]
  rw [addf_apply]
  simp only [matmul]
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun r _ => ?_)
  have hk := contrEquiv1_symm_val dot_S1024x1024_S1024x1024_S1024x1024_1_1_0_0_n_n 1024 rfl rfl r
  have el : dot_S1024x1024_S1024x1024_S1024x1024_1_1_0_0_n_n.lhsIdx (ix2 p q) ((contrEquiv1 dot_S1024x1024_S1024x1024_S1024x1024_1_1_0_0_n_n 1024 rfl rfl).symm r) = ix2 p r := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm r) = ix2 q r := funext fun a => Fin.ext (by
    match a with
    | ⟨0, _⟩ => exact rhs_axis0 _ _
    | ⟨1, _⟩ => exact (rhs_axis1 _ _).trans hk)
  rw [el, er]
  rfl

/-- The output value at entry (p, q): the accumulator there plus the bias row's entry q. -/
theorem output_apply (acc : Vec Ideal S1024x1024 .f32) (brow : Vec Ideal S1x1024 .f32) (p q : Fin 1024) :
    k0_pay3 (F := Ideal) acc brow (ix2 p q) = acc (ix2 p q) + brow (ix2 0 q) := by
  unfold k0_pay3
  simp only [shapeCast_self]
  rw [addf_apply]
  refine congrArg (acc (ix2 p q) + ·) ?_
  exact broadcastTo_apply brow broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

end Cert.KernelIdeal.Acc

end
-- ==== Proof.Accum.lean ====
/-
  What the accumulator holds after every grid point, and what the output block receives at the last point of a run.

  Points 4a, 4a+1, 4a+2, 4a+3 share their row-block and their column-block and walk the four K-blocks. By induction
  on the point: after point `n` the accumulator's entry (p, q) is the sum over the K-blocks 0 … n % 4 of
  "row 1024·(n/16) + p of X against row 1024·(n/4%4) + q of W over that K-block". At a point with n % 4 = 0 the
  accumulator restarts from zero, so the sum has one term; at every other point one term is added to what the point
  before left, and that point has the same row- and column-block.

  At a point with n % 4 = 3 all four K-blocks are in, which is the whole row product, and the output block receives
  it plus the bias entry: entry (1024·(n/16) + p, 1024·(n/4%4) + q) of the specification.
-/
import proofs.«126872_j33483565039896_1_alg».proof.Proof.Blocks
import proofs.«126872_j33483565039896_1_alg».proof.Proof.Pieces
import proofs.«126872_j33483565039896_1_alg».proof.Proof.Payload

noncomputable section

open Idealize.ShloMosaic Idealize.ShloMosaic.TcCoe Idealize.SL.Sem Idealize.ShloMosaic.ValueIdx

namespace Cert.KernelIdeal.Acc

open Cert.KernelIdeal Cert.KernelIdeal.Gen Cert.Lin

variable (m : (ℓ : Loc nD τ sig) → Buf (Elt Ideal) ℓ)

/-- One point's contribution to entry (p, q): the K-block `n % 4` of the row product. -/
theorem addend (c : Dev nD) (n : ℕ) (hn : n < cfg0.N) (p q : Fin 1024) :
    ∑ r : Fin 1024, xblk m c ⟨n, hn⟩ (ix2 p r) * wblk m c ⟨n, hn⟩ (ix2 q r)
      = blockDot (xarr m c) (warr m c) (1024 * (n / 16) + p.val) (1024 * (n / 4 % 4) + q.val) (n % 4) := by
  unfold blockDot
  refine Finset.sum_congr rfl fun r _ => ?_
  rw [xblk_apply, wblk_apply]

/-- THE INVARIANT: the accumulator after point `n`. -/
theorem scratch_at (c : Dev nD) : ∀ (n : ℕ) (hn : n < cfg0.N) (p q : Fin 1024),
    (outsAt0 m c n hn).2 (ix2 p q)
      = ∑ s ∈ Finset.range (n % 4 + 1), blockDot (xarr m c) (warr m c) (1024 * (n / 16) + p.val) (1024 * (n / 4 % 4) + q.val) s
  | n, hn, p, q => by
    by_cases h0 : n % 4 = 0
    · -- a run starts: zero, updated once
      have h1 : ¬n % 4 = 3 := by omega
      rw [outsAt0_A m c ⟨n, hn⟩ h0 h1]
      dsimp only
      refine (congrFun (scratch_first (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h))
        (xblk m c ⟨n, hn⟩) (wblk m c ⟨n, hn⟩) (bblk m c ⟨n, hn⟩)) (ix2 p q)).trans ?_
      rw [update_apply, reset_apply, zero_add, addend, h0, Finset.sum_range_one]
    · -- a run goes on: the point before, updated once
      obtain ⟨k, rfl⟩ : ∃ k, n = k + 1 := ⟨n - 1, by omega⟩
      have ih := scratch_at c k (Nat.lt_of_succ_lt hn) p q
      have e1 : (k + 1) / 16 = k / 16 := by omega
      have e2 : (k + 1) / 4 % 4 = k / 4 % 4 := by omega
      have e3 : (k + 1) % 4 = k % 4 + 1 := by omega
      by_cases h1 : (k + 1) % 4 = 3
      · rw [outsAt0_C m c ⟨k + 1, hn⟩ h0 h1]
        dsimp only
        refine (congrFun (scratch_last (F := Ideal) c (grid0.coords ⟨k + 1, hn⟩) (ms0_0 ⟨k + 1, hn⟩) (hs0_0 ⟨k + 1, hn⟩) (ms0_1 ⟨k + 1, hn⟩) (hs0_1 ⟨k + 1, hn⟩)
          (ms0_2 ⟨k + 1, hn⟩) (hs0_2 ⟨k + 1, hn⟩) (ms0_3 ⟨k + 1, hn⟩) (hs0_3 ⟨k + 1, hn⟩) scM0_0 (Memref.isWhole_whole _)
          (fun h => h0 ((hcond0_0 ⟨k + 1, hn⟩).mp h)) ((hcond0_1 ⟨k + 1, hn⟩).mpr h1)
          (xblk m c ⟨k + 1, hn⟩) (wblk m c ⟨k + 1, hn⟩) (bblk m c ⟨k + 1, hn⟩)
          (outsAt0 m c k (Nat.lt_of_succ_lt hn)).2) (ix2 p q)).trans ?_
        rw [update_apply, addend, ih, e1, e2, e3, Finset.sum_range_succ _ (k % 4 + 1)]
      · rw [outsAt0_B m c ⟨k + 1, hn⟩ h0 h1]
        dsimp only
        refine (congrFun (scratch_mid (F := Ideal) c (grid0.coords ⟨k + 1, hn⟩) (ms0_0 ⟨k + 1, hn⟩) (hs0_0 ⟨k + 1, hn⟩) (ms0_1 ⟨k + 1, hn⟩) (hs0_1 ⟨k + 1, hn⟩)
          (ms0_2 ⟨k + 1, hn⟩) (hs0_2 ⟨k + 1, hn⟩) (ms0_3 ⟨k + 1, hn⟩) (hs0_3 ⟨k + 1, hn⟩) scM0_0 (Memref.isWhole_whole _)
          (fun h => h0 ((hcond0_0 ⟨k + 1, hn⟩).mp h)) (fun h => h1 ((hcond0_1 ⟨k + 1, hn⟩).mp h))
          (xblk m c ⟨k + 1, hn⟩) (wblk m c ⟨k + 1, hn⟩) (bblk m c ⟨k + 1, hn⟩)
          (outsAt0 m c k (Nat.lt_of_succ_lt hn)).2) (ix2 p q)).trans ?_
        rw [update_apply, addend, ih, e1, e2, e3, Finset.sum_range_succ _ (k % 4 + 1)]

/-- At the last point of a run the output block is the accumulator that point leaves, plus the bias row. -/
theorem out_eq (c : Dev nD) (t : Fin cfg0.N) (h3 : t.val % 4 = 3) :
    (outsAt0 m c t.val t.isLt).1 = k0_pay3 (F := Ideal) (outsAt0 m c t.val t.isLt).2 (bblk m c t) := by
  have h0 : ¬t.val % 4 = 0 := by omega
  rw [outsAt0_C m c t h0 h3]
  dsimp only
  rw [out_last, scratch_last]

/-- THE OUTPUT BLOCK at the last point of a run, entry (p, q): the specification's entry at the block's place. -/
theorem out_at (c : Dev nD) (t : Fin cfg0.N) (h3 : t.val % 4 = 3) (p q : Fin 1024) :
    (outsAt0 m c t.val t.isLt).1 (ix2 p q)
      = rowDot (xarr m c) (warr m c) (1024 * (t.val / 16) + p.val) (1024 * (t.val / 4 % 4) + q.val)
        + entry (m ((c : Thread nD τ).loc main_arg2) : Vec Ideal S4096 .f32) (1024 * (t.val / 4 % 4) + q.val) := by
  have ht := point_lt t
  have hq := q.isLt
  rw [out_eq m c t h3, output_apply, scratch_at m c t.val t.isLt p q, h3, bblk_apply, barr_cell m c _ (by omega),
    rowDot_eq_blocks]

end Cert.KernelIdeal.Acc

end
-- ==== Proof.Final.lean ====
/-
  From the output blocks to the result array, and the kernel program's run.

  The output window's block at point `t` is rows 1024·(t/16) … and columns 1024·(t/4%4) … of the 8192×4096 result,
  written back exactly at the points with t % 4 = 3, where it holds the specification's entries of that block
  (the accumulation module). Every entry (i, j) of the result lies in the block of the point
  16·(i/1024) + 4·(j/1024) + 3, so the whole array ends as the specification; the host then re-lays it row-major
  as 4×2048×4096.
-/
import proofs.«126872_j33483565039896_1_alg».proof.Proof.Accum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Lin

variable (m : (ℓ : Loc nD τ sig) → Buf (Elt Ideal) ℓ) (ρ : Dev nD → PrngReg)

/-- The 8192×4096 result as the specification of the arrays the region finds. -/
abbrev outArr (c : Dev nD) : Vec Ideal S8192x4096 .f32 :=
  lin (xarr m c) (warr m c) (m ((c : Thread nD τ).loc main_arg2))

/-- What a writing-back point writes back is its block of the specification. -/
theorem flushed_eq (c : Dev nD) (t : Fin cfg0.N) (hf : (cfg0.win 3).flush t = true) :
    (dats m 0 c).flushed 3 t = ((cfg0.win 3).blk t).view.read (Elt Ideal) (outArr m c) := by
  have h3 : t.val % 4 = 3 := (flush0_3 t).mp hf
  have ht := point_lt t
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  rw [View.read_apply]
  have key : ∀ e : S8192x4096.Idx, (e 0).val = 1024 * (t.val / 16) + p.val → (e 1).val = 1024 * (t.val / 4 % 4) + q.val →
      (outsAt0 m c t.val t.isLt).1 (ix2 p q) = outArr m c e := by
    intro e c0 c1
    show _ = rowDot (xarr m c) (warr m c) (e 0).val (e 1).val + entry (m ((c : Thread nD τ).loc main_arg2) : Vec Ideal S4096 .f32) (e 1).val
    rw [c0, c1]
    exact out_at m c t h3 p q
  exact key (((cfg0.win 3).blk t).view.emb (ix2 p q))
    (by show win0_3.index t 0 * 1024 + 1 * p.val = _; rw [(idx_o t).1]; omega)
    (by show win0_3.index t 1 * 1024 + 1 * q.val = _; rw [(idx_o t).2]; omega)

/-- An entry of the result is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v2).slice (win0_3.rect t)).set ↔ _
  rw [View.set_slice_whole, Rect.mem_set_unit]
  exact Iff.rfl

/-- Every entry of the result is in the block of a point that writes back. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have hlt : 16 * ((i 0).val / 1024) + 4 * ((i 1).val / 1024) + 3 < cfg0.N := by rw [hN]; omega
  have e := idx_o ⟨_, hlt⟩
  have e0 : win0_3.index ⟨_, hlt⟩ 0 = (i 0).val / 1024 := by
    rw [e.1]; show (16 * ((i 0).val / 1024) + 4 * ((i 1).val / 1024) + 3) / 16 = _; omega
  have e1 : win0_3.index ⟨_, hlt⟩ 1 = (i 1).val / 1024 := by
    rw [e.2]; show (16 * ((i 0).val / 1024) + 4 * ((i 1).val / 1024) + 3) / 4 % 4 = _; omega
  refine ⟨⟨_, hlt⟩, (flush0_3 _).mpr (by show (16 * ((i 0).val / 1024) + 4 * ((i 1).val / 1024) + 3) % 4 = 3; omega), ?_⟩
  rw [mem_blk]
  intro a
  match a with
  | ⟨0, _⟩ =>
    show win0_3.index ⟨_, hlt⟩ 0 * 1024 ≤ (i 0).val ∧ (i 0).val < win0_3.index ⟨_, hlt⟩ 0 * 1024 + 1024
    rw [e0]; omega
  | ⟨1, _⟩ =>
    show win0_3.index ⟨_, hlt⟩ 1 * 1024 ≤ (i 1).val ∧ (i 1).val < win0_3.index ⟨_, hlt⟩ 1 * 1024 + 1024
    rw [e1]; omega

/-- THE RESULT ARRAY after the region: the specification. -/
theorem final (c : Dev nD) : (dats m 0 c).arrAt 3 cfg0.N = outArr m c :=
  (dats m 0 c).arrAt_eq_of_cover 3 (outArr m c) (fun t hf => flushed_eq m c t hf) cover

/-- The program's result: the specification of the launch contents — the first argument re-laid as 8192×4096, the
    second and third as they are — re-laid as 4×2048×4096. -/
abbrev result (c : Dev nD) : Vec Ideal S4x2048x4096 .f32 :=
  shapeCast S4x2048x4096
    (lin (shapeCast S8192x4096 (m ((c : Thread nD τ).loc main_arg0)) shapeCasts_S4x2048x4096_S8192x4096)
      (m ((c : Thread nD τ).loc main_arg1)) (m ((c : Thread nD τ).loc main_arg2)))
    shapeCasts_S8192x4096_S4x2048x4096

/-- The host line after the region re-lays the region's result. -/
theorem tail_eq (c : Dev nD) :
    Pipeline.afterTail₀ cfgs (dats m) 0 (V0 m) [hostOps1] c main_v0 = result m c := by
  have hw : Pipeline.withArrays spec0 c (V0 m c) (fun w => (dats m 0 c).arrAt w cfg0.N) (Proc.devRef .tc main_call0_v2)
      = lin (shapeCast S8192x4096 (m ((c : Thread nD τ).loc main_arg0)) shapeCasts_S4x2048x4096_S8192x4096)
          (m ((c : Thread nD τ).loc main_arg1)) (m ((c : Thread nD τ).loc main_arg2)) :=
    (Pipeline.withArrays_arr spec0 launch0.win.arr_inj c _ _ 3).trans
      ((final m c).trans (by unfold outArr; rw [xarr_eq, warr_eq]))
  unfold Pipeline.afterTail₀
  show StableHlo.after hostOps1 _ (Proc.devRef .tc main_v0) = _
  after_results
  refine Eq.trans ?_ (congrArg (fun B => shapeCast S4x2048x4096 B shapeCasts_S8192x4096_S4x2048x4096) hw)
  rfl

/-- THE RUN of the idealized kernel program: it ends with the result array at `result`, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Acc

end
-- ==== Proof.Reference.lean ====
/-
  The reference program's result is the same specification.

  The reference re-lays the first argument as 8192×4096, contracts its columns with the columns of the second
  argument in one sum of 4096 terms, adds the third argument broadcast along the rows, and re-lays the sum as
  4×2048×4096. Read entry by entry this is `lin` of the re-laid first argument, word for word.
-/
import proofs.«126872_j33483565039896_1_alg».proof.Proof.Gen.ReferenceIdeal.Read
import proofs.«126872_j33483565039896_1_alg».proof.Proof.Spec

noncomputable section

open Idealize.ShloMosaic Idealize.ShloMosaic.TcCoe Idealize.SL.Sem Idealize.ShloMosaic.ValueIdx

namespace Cert.ReferenceIdeal.Lin

open Cert.ReferenceIdeal Cert.ReferenceIdeal.Gen Cert.ReferenceIdeal.Read Cert.Lin

/-- The sum before the last re-laying is the specification of the re-laid first argument: the product reads its left
    operand at (i₀, k) and its right operand at (i₁, k), and the two broadcasts read the bias at i₁. -/
theorem sum_stage (x0 : Vec Ideal S4x2048x4096 .f32) (x1 : Vec Ideal S4096x4096 .f32) (x2 : Vec Ideal S4096 .f32) :
    val_main_v4 (F := Ideal) x0 x1 x2 = lin (val_main_v0 (F := Ideal) x0) x1 x2 := by
  funext i
  rw [val_main_v4_apply, val_main_v1_apply, val_main_v3_apply, val_main_v2_apply]
  exact congrArg₂ (· + ·)
    (Finset.sum_congr rfl fun k _ => congrArg₂ (· * ·)
      (apply_eq_cell (val_main_v0 (F := Ideal) x0) (lidx_main_v1 i k)) (apply_eq_cell x1 (ridx_main_v1 i k)))
    (apply_eq_entry x2 (idx_main_v2 (idx_main_v3 i)))

/-- The reference's result, as the kernel program's is stated. -/
theorem result_eq (x0 : Vec Ideal S4x2048x4096 .f32) (x1 : Vec Ideal S4096x4096 .f32) (x2 : Vec Ideal S4096 .f32) :
    val_main_v5 (F := Ideal) x0 x1 x2
      = shapeCast S4x2048x4096 (lin (shapeCast S8192x4096 x0 shapeCasts_S4x2048x4096_S8192x4096) x1 x2)
          shapeCasts_S8192x4096_S4x2048x4096 := by
  unfold val_main_v5
  rw [sum_stage]
  rfl

end Cert.ReferenceIdeal.Lin

end
-- ==== Proof.lean ====
/-
  The certificate of a dense linear layer, out = x · Wᵀ + bias, computed by a tiled kernel against one einsum.

  x is 4×2048×4096, W is 4096×4096, bias has 4096 entries. Both programs re-lay x as X, 8192 rows of 4096, compute
      out (i, j) = (∑ k < 4096, X (i, k) · W (j, k)) + bias j
  and re-lay the 8192×4096 result as 4×2048×4096.

  The kernel walks a grid of 8 row-blocks × 4 column-blocks × 4 K-blocks of 1024. For each (row-block, column-block)
  it zeroes an accumulator at the first K-block, adds the 1024-term partial products of each K-block into it, and at
  the fourth K-block writes accumulator + bias into the output block. The reference forms each entry as one sum of
  4096 products. Over the extended reals a narrowing of the float format is the identity and every sum is exact, so
  the only difference is the grouping of the 4096 products into four groups of 1024, and addition is commutative and
  associative: the two results are equal entry by entry, for all inputs. The precondition is not used by the
  algebra.

  The modules: Spec (the specification `lin` and the grouping law), Pieces and Payload (what one call of the body
  leaves, and its stored values read at an entry), Blocks (the blocks the body is handed, as entries of the arrays),
  Accum (the accumulator after every grid point, by induction on the point), Final (blocks to the result array, the
  host's re-laying, the kernel program's run), Reference (the reference's result is the same specification). Below:
  the three frames, the trivial preservation claim (the idealization rewrote nothing), and the equivalence.
-/
import proofs.«126872_j33483565039896_1_alg».proof.Defs
import proofs.«126872_j33483565039896_1_alg».proof.Proof.Gen.Kernel
import proofs.«126872_j33483565039896_1_alg».proof.Proof.Gen.Kernel.Skeleton
import proofs.«126872_j33483565039896_1_alg».proof.Proof.Gen.Kernel.Launch
import proofs.«126872_j33483565039896_1_alg».proof.Proof.Gen.Kernel.Points
import proofs.«126872_j33483565039896_1_alg».proof.Proof.Gen.Kernel.Frame
import proofs.«126872_j33483565039896_1_alg».proof.Proof.Gen.KernelIdeal
import proofs.«126872_j33483565039896_1_alg».proof.Proof.Gen.KernelIdeal.Skeleton
import proofs.«126872_j33483565039896_1_alg».proof.Proof.Gen.KernelIdeal.Launch
import proofs.«126872_j33483565039896_1_alg».proof.Proof.Gen.KernelIdeal.Points
import proofs.«126872_j33483565039896_1_alg».proof.Proof.Gen.KernelIdeal.Frame
import proofs.«126872_j33483565039896_1_alg».proof.Proof.Gen.ReferenceIdeal
import proofs.«126872_j33483565039896_1_alg».proof.Proof.Gen.Pre_finite_inputs
import proofs.«126872_j33483565039896_1_alg».proof.Proof.Gen.ReferenceIdeal.Run
import proofs.«126872_j33483565039896_1_alg».proof.Proof.Gen.ReferenceIdeal.Read
import proofs.«126872_j33483565039896_1_alg».proof.Proof.Final
import proofs.«126872_j33483565039896_1_alg».proof.Proof.Reference
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result at the specification of those
    arguments, re-laid: the kernel program by its run over the accumulated blocks, the reference by its one sum. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Lin.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
